-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S4096x16384 : Shape := ⟨2, ![4096, 16384]⟩
abbrev S4096 : Shape := ⟨1, ![4096]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S64x16384 .f32) (main_arg1 : FVec F S4096x16384 .f32) (main_arg2 : FVec F S4096 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S64x16384 : Shape := ⟨2, ![64, 16384]⟩
abbrev S4096x16384 : Shape := ⟨2, ![4096, 16384]⟩
abbrev S4096 : Shape := ⟨1, ![4096]⟩
abbrev S1x4096 : Shape := ⟨2, ![1, 4096]⟩
abbrev S64x4096 : Shape := ⟨2, ![64, 4096]⟩
abbrev S1x256 : Shape := ⟨2, ![1, 256]⟩
abbrev S256x4096 : Shape := ⟨2, ![256, 4096]⟩
abbrev S64x256 : Shape := ⟨2, ![64, 256]⟩

abbrev nBuf : Space → Nat
  | .hbm => 5
  | .vmem => 13
  | .smem => 0
  | _ => 0

abbrev bufTy : (tb : Table) → Fin (tcTables nBuf tb) → BufTy
  | .hbm, ⟨0, _⟩ => ⟨S64x16384, .f32⟩
  | .hbm, ⟨1, _⟩ => ⟨S4096x16384, .f32⟩
  | .hbm, ⟨2, _⟩ => ⟨S4096, .f32⟩
  | .hbm, ⟨3, _⟩ => ⟨S1x4096, .f32⟩
  | .hbm, ⟨4, _⟩ => ⟨S64x4096, .f32⟩
  | .local _ .vmem, ⟨0, _⟩ => ⟨S64x16384, .f32⟩
  | .local _ .vmem, ⟨1, _⟩ => ⟨S1x256, .f32⟩
  | .local _ .vmem, ⟨2, _⟩ => ⟨S1x256, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S64x256, .f32⟩
  | .local _ .vmem, ⟨12, _⟩ => ⟨S64x256, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096_S1x4096 : S4096.ShapeCasts S1x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S64x16384_S64x4096_0_0 : ∀ a, (![0, 0] : Fin 2 → Nat) a + S64x4096.size a ≤ S64x16384.size a
  h_S64x4096 : 0 < S64x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  broadcasts_S1x256_S64x256 : S1x256.Broadcasts S64x256
  inb_S64x16384_S64x4096_0_4096 : ∀ a, (![0, 4096] : Fin 2 → Nat) a + S64x4096.size a ≤ S64x16384.size a
  inb_S64x16384_S64x4096_0_8192 : ∀ a, (![0, 8192] : Fin 2 → Nat) a + S64x4096.size a ≤ S64x16384.size a
  inb_S64x16384_S64x4096_0_12288 : ∀ a, (![0, 12288] : Fin 2 → Nat) a + S64x4096.size a ≤ S64x16384.size a
  inb_S64x256_S64x256_0_0 : ∀ a, (![0, 0] : Fin 2 → Nat) a + S64x256.size a ≤ S64x256.size a
  h_S64x256 : 0 < S64x256.numel
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x16384.size a
  hwx0_0 : ∀ i : grid0.Coords, EltTy.bits .f32 = 32 ∨ (Rect.block (s := S64x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x4096.size a
  hwx0_1 : ∀ i : grid0.Coords, EltTy.bits .f32 = 32 ∨ (Rect.block (s := S1x4096) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x16384.size a
  hwx0_2 : ∀ i : grid0.Coords, EltTy.bits .f32 = 32 ∨ (Rect.block (s := S4096x16384) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x16384.size a
  hwx0_3 : ∀ i : grid0.Coords, EltTy.bits .f32 = 32 ∨ (Rect.block (s := S4096x16384) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x16384.size a
  hwx0_4 : ∀ i : grid0.Coords, EltTy.bits .f32 = 32 ∨ (Rect.block (s := S4096x16384) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x16384.size a
  hwx0_5 : ∀ i : grid0.Coords, EltTy.bits .f32 = 32 ∨ (Rect.block (s := S4096x16384) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x4096.size a
  hwx0_6 : ∀ i : grid0.Coords, EltTy.bits .f32 = 32 ∨ (Rect.block (s := S64x4096) S64x256.size (cc0_transform_6 i) (hinb0_6 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S64x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x16384 : Shape := ⟨2, ![64, 16384]⟩
abbrev S4096x16384 : Shape := ⟨2, ![4096, 16384]⟩
abbrev S4096 : Shape := ⟨1, ![4096]⟩
abbrev S16384x64 : Shape := ⟨2, ![16384, 64]⟩
abbrev S4096x64 : Shape := ⟨2, ![4096, 64]⟩
abbrev S64x4096 : Shape := ⟨2, ![64, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S4096x16384, .f32⟩
  | .hbm, ⟨2, _⟩ => ⟨S4096, .f32⟩
  | .hbm, ⟨3, _⟩ => ⟨S16384x64, .f32⟩
  | .hbm, ⟨4, _⟩ => ⟨S4096x64, .f32⟩
  | .hbm, ⟨5, _⟩ => ⟨S64x4096, .f32⟩
  | .hbm, ⟨6, _⟩ => ⟨S1x4096, .f32⟩
  | .hbm, ⟨7, _⟩ => ⟨S64x4096, .f32⟩
  | .hbm, ⟨8, _⟩ => ⟨S64x4096, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S64x16384_S16384x64_1_0 : S64x16384.Transposes [1, 0] S16384x64
  transposes_S4096x64_S64x4096_1_0 : S4096x64.Transposes [1, 0] S64x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  dot_S4096x16384_S16384x64_S4096x64_1_0_0_1_n_n_wf : DotDims.WF S4096x16384 S16384x64 S4096x64 [1] [0] [0] [1] [] []

variable [Facts₀]

def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.LibSharedFrame.lean ====
/-
  A frame run for a one-region pipeline program whose INPUT WINDOWS MAY SHARE AN ARRAY (one array handed to the
  kernel through several block specifications, each window reading its own blocks of it).

  The body of such a kernel is of the plainest kind: it has no semaphore, transfer or scratch of its own and does
  not use the generator register, so the region invariant is just the core's scoped buffers that are no staging
  buffer, at some contents. What is particular is the split of the arrays at entry: the distinct buffers behind the
  windows' arrays, each whole at the full share at the region-entry contents, must be dealt to the windows — an array
  read by several input windows in shares that compose to the full share. That split is the caller's (`hsplit`);
  everything else is as for distinct arrays. The conclusion is the usual post: every window's array ends at the
  contents the write-backs compute (an input's: its entry contents), and every unscoped buffer that is no window's
  array ends as the region found it.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. `hw` is the windows' layout without the arrays' distinctness,
    `hsplit` deals the buffers behind the arrays to the windows at entry, `hΦ` says the proof data's invariant is
    the scoped rest alone (the body keeps nothing and draws no random bits). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedFrame

end
-- ==== Proof.KernelBody.lean ====
/-
  The run of `Kernel`'s @main, at any float instance: the bias is reshaped to a row on the host, then one pipelined
  region over 16 grid points. At point n the body is handed the whole of x (64 × 16384, fetched once), the n-th block
  of 256 bias entries, and FOUR blocks of the weight matrix — rows 256n … 256n+255, one block per quarter of the
  16384 columns — through four windows that all read the one weight array. It loads the four quarters of x and the
  four weight blocks, and stores one 64 × 256 block of the result.

  What each point leaves in the output window's buffer is the body's one store, a pure function (the skeleton's
  payload) of the blocks the body was handed; the input windows' buffers are left as found. The weight array is
  dealt to its four windows in four shares that make up the full share, so that each window's fetches read it; the
  launch is the shared-array frame run. The run ends with every argument array unchanged and the result array at the
  contents the sixteen write-backs compute.
-/
import proofs.«127187_g63496796504161_cont_9to1_m_720_6_alg».proof.Proof.Gen.Kernel.Launch
import proofs.«127187_g63496796504161_cont_9to1_m_720_6_alg».proof.Proof.Gen.Kernel.Skeleton
import proofs.«127187_g63496796504161_cont_9to1_m_720_6_alg».proof.Proof.Gen.Kernel.Points
import proofs.«127187_g63496796504161_cont_9to1_m_720_6_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: the three argument arrays are as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place. -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V m c (Pipeline.arrRef spec0 w))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses -/

abbrev rB : Rect S1x256 := Rect.unit (s := S1x256) ![0, 0] S1x256.size inb_S1x256_S1x256_0_0
abbrev rX0 : Rect S64x16384 := Rect.unit (s := S64x16384) ![0, 0] S64x4096.size inb_S64x16384_S64x4096_0_0
abbrev rX1 : Rect S64x16384 := Rect.unit (s := S64x16384) ![0, 4096] S64x4096.size inb_S64x16384_S64x4096_0_4096
abbrev rX2 : Rect S64x16384 := Rect.unit (s := S64x16384) ![0, 8192] S64x4096.size inb_S64x16384_S64x4096_0_8192
abbrev rX3 : Rect S64x16384 := Rect.unit (s := S64x16384) ![0, 12288] S64x4096.size inb_S64x16384_S64x4096_0_12288
abbrev rW : Rect S256x4096 := Rect.unit (s := S256x4096) ![0, 0] S256x4096.size inb_S256x4096_S256x4096_0_0
abbrev rO : Rect S64x256 := Rect.unit (s := S64x256) ![0, 0] S64x256.size inb_S64x256_S64x256_0_0

/-! ## What the body leaves in the output window's buffer -/

/-- The output buffer after the body, from the input windows' blocks: its one store, of the payload of the loads. -/
def outBlk (x : Vec F S64x16384 .f32) (b : Vec F S1x256 .f32) (w0 w1 w2 w3 : Vec F S256x4096 .f32) : Vec F S64x256 .f32 :=
  View.canon [⟨rO, k0_pay1 (View.ld b rB) (View.ld x rX0) (View.ld w0 rW) (View.ld x rX1) (View.ld w1 rW) (View.ld x rX2) (View.ld w2 rW) (View.ld x rX3) (View.ld w3 rW)⟩]

/-- The store covers the buffer. -/
theorem coverO (p0 : Vec F S64x256 .f32) (y : S64x256.Idx) :
    ∃ pc ∈ ([⟨rO, p0⟩] : List (View.Piece (Elt F) S64x256 .f32)), y ∈ pc.1.set :=
  View.cover_of_tiled [⟨rO, p0⟩] S64x256.size (by rfl) y

/-! ## The body's triple -/

set_option maxHeartbeats 4000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S64x16384 .f32) (harg1 : arg1.IsWhole) (arg2 : Memref sig .tc .vmem S1x256 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S64x256 .f32) (harg7 : arg7.IsWhole)
    (x : Vec F S64x16384 .f32) (b : Vec F S1x256 .f32) (w0 w1 w2 w3 : Vec F S256x4096 .f32) (K : PUnit → sProp 𝕄) :
    iprop(owns (c : Thread nD τ) arg1 fullShare x ∗ owns (c : Thread nD τ) arg2 fullShare b
        ∗ owns (c : Thread nD τ) arg3 fullShare w0 ∗ owns (c : Thread nD τ) arg4 fullShare w1
        ∗ owns (c : Thread nD τ) arg5 fullShare w2 ∗ owns (c : Thread nD τ) arg6 fullShare w3
        ∗ (∃ d, owns (c : Thread nD τ) arg7 fullShare d)
        ∗ (iprop(owns (c : Thread nD τ) arg1 fullShare x ∗ owns (c : Thread nD τ) arg2 fullShare b
            ∗ owns (c : Thread nD τ) arg3 fullShare w0 ∗ owns (c : Thread nD τ) arg4 fullShare w1
            ∗ owns (c : Thread nD τ) arg5 fullShare w2 ∗ owns (c : Thread nD τ) arg6 fullShare w3
            ∗ owns (c : Thread nD τ) arg7 fullShare (outBlk x b w0 w1 w2 w3)) -∗ K ⟨⟩))
      ⊢ wp frame (wpE (defs₀ (F := F)) Variants.none c none) E (cc0__mm_kernel i arg1 harg1 arg2 harg2 arg3 harg3 arg4 harg4 arg5 harg5 arg6 harg6 arg7 harg7) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.Kernel.Frm

end
-- ==== Proof.KernelRun.lean ====
/-
  The proof data of `Kernel`'s one pipeline, the body obligation at every grid point, and the run.

  After the body at point t each input window's buffer holds its block (the body only reads it) and the output
  window's buffer holds the body's store, the payload of those blocks. The weight array, read by windows 2 to 5, is
  held by them in the four shares left, right-left, right-right-left, right-right-right of the full share.
-/
import proofs.«127187_g63496796504161_cont_9to1_m_720_6_alg».proof.Proof.KernelBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output window's buffer holds after the body at point `t`. -/
def outAt (c : Dev nD) (t : Fin cfg0.N) : Vec F S64x256 .f32 :=
  outBlk (iblk m c 0 t) (iblk m c 1 t) (iblk m c 2 t) (iblk m c 3 t) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right.left
    | ⟨4, _⟩ => fullShare.right.right.left
    | ⟨5, _⟩ => fullShare.right.right.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The four buffers behind the seven windows' arrays, each whole at the full share as the region finds them, are
    the windows' arrays at their shares: the weight array's full share is the four shares of its four windows. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_W0, bigSep_eq_bigSepL_of_eq [main_arg0, main_v0, main_arg1, main_v1] (by decide) (by decide)]
  simp only [bigSepL_cons_cons, bigSepL_singleton]
  rw [(arr_whole0 0).set_eq_univ, (arr_whole0 1).set_eq_univ, (arr_whole0 2).set_eq_univ, (arr_whole0 6).set_eq_univ]
  show iprop((((c : Thread nD τ).loc main_arg0) ↦{fullShare} V m c main_arg0)
      ∗ (((c : Thread nD τ).loc main_v0) ↦{fullShare} V m c main_v0)
      ∗ (((c : Thread nD τ).loc main_arg1) ↦{fullShare} V m c main_arg1)
      ∗ (((c : Thread nD τ).loc main_v1) ↦{fullShare} V m c main_v1))
    ⊢ iprop((((c : Thread nD τ).loc main_arg0) ↦{fullShare} V m c main_arg0)
      ∗ (((c : Thread nD τ).loc main_v0) ↦{fullShare} V m c main_v0)
      ∗ (((c : Thread nD τ).loc main_arg1) ↦{fullShare.left} V m c main_arg1)
      ∗ (((c : Thread nD τ).loc main_arg1) ↦{fullShare.right.left} V m c main_arg1)
      ∗ (((c : Thread nD τ).loc main_arg1) ↦{fullShare.right.right.left} V m c main_arg1)
      ∗ (((c : Thread nD τ).loc main_arg1) ↦{fullShare.right.right.right} V m c main_arg1)
      ∗ (((c : Thread nD τ).loc main_v1) ↦{fullShare} V m c main_v1))
  iintro ⟨H0, H1, H2, H3⟩
  ihave H2 := (pointsTo_share (PosShare.mem_left_op_right fullShare)).1 $$ H2
  icases H2 with ⟨Ha, Hr⟩
  ihave Hr := (pointsTo_share (PosShare.mem_left_op_right fullShare.right)).1 $$ Hr
  icases Hr with ⟨Hb, Hr⟩
  ihave Hr := (pointsTo_share (PosShare.mem_left_op_right fullShare.right.right)).1 $$ Hr
  icases Hr with ⟨Hc, Hd⟩
  isplitl [H0]; · iexact H0
  isplitl [H1]; · iexact H1
  isplitl [Ha]; · iexact Ha
  isplitl [Hb]; · iexact Hb
  isplitl [Hc]; · iexact Hc
  isplitl [Hd]; · iexact Hd
  iexact H3

/-! ## The run -/

set_option backward.isDefEq.respectTransparency.types false in
/-- Every weakly fair execution of @main terminates; every window's array ends at the contents the write-backs
    compute, and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The run's post read at the program's arrays: the result array at what the sixteen write-backs leave, the three
    argument arrays unchanged (x and the weights are inputs of the pipeline; the bias vector bypasses the region). -/
theorem run_arrays : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

/-- The frame: @main runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_arrays m ρ)

end Cert.Kernel.Frm

end
-- ==== Proof.KernelIdealBody.lean ====
/-
  The run of `KernelIdeal`'s @main, at any float instance: the bias is reshaped to a row on the host, then one pipelined
  region over 16 grid points. At point n the body is handed the whole of x (64 × 16384, fetched once), the n-th block
  of 256 bias entries, and FOUR blocks of the weight matrix — rows 256n … 256n+255, one block per quarter of the
  16384 columns — through four windows that all read the one weight array. It loads the four quarters of x and the
  four weight blocks, and stores one 64 × 256 block of the result.

  What each point leaves in the output window's buffer is the body's one store, a pure function (the skeleton's
  payload) of the blocks the body was handed; the input windows' buffers are left as found. The weight array is
  dealt to its four windows in four shares that make up the full share, so that each window's fetches read it; the
  launch is the shared-array frame run. The run ends with every argument array unchanged and the result array at the
  contents the sixteen write-backs compute.
-/
import proofs.«127187_g63496796504161_cont_9to1_m_720_6_alg».proof.Proof.Gen.KernelIdeal.Launch
import proofs.«127187_g63496796504161_cont_9to1_m_720_6_alg».proof.Proof.Gen.KernelIdeal.Skeleton
import proofs.«127187_g63496796504161_cont_9to1_m_720_6_alg».proof.Proof.Gen.KernelIdeal.Points
import proofs.«127187_g63496796504161_cont_9to1_m_720_6_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: the three argument arrays are as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place. -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V m c (Pipeline.arrRef spec0 w))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses -/

abbrev rB : Rect S1x256 := Rect.unit (s := S1x256) ![0, 0] S1x256.size inb_S1x256_S1x256_0_0
abbrev rX0 : Rect S64x16384 := Rect.unit (s := S64x16384) ![0, 0] S64x4096.size inb_S64x16384_S64x4096_0_0
abbrev rX1 : Rect S64x16384 := Rect.unit (s := S64x16384) ![0, 4096] S64x4096.size inb_S64x16384_S64x4096_0_4096
abbrev rX2 : Rect S64x16384 := Rect.unit (s := S64x16384) ![0, 8192] S64x4096.size inb_S64x16384_S64x4096_0_8192
abbrev rX3 : Rect S64x16384 := Rect.unit (s := S64x16384) ![0, 12288] S64x4096.size inb_S64x16384_S64x4096_0_12288
abbrev rW : Rect S256x4096 := Rect.unit (s := S256x4096) ![0, 0] S256x4096.size inb_S256x4096_S256x4096_0_0
abbrev rO : Rect S64x256 := Rect.unit (s := S64x256) ![0, 0] S64x256.size inb_S64x256_S64x256_0_0

/-! ## What the body leaves in the output window's buffer -/

/-- The output buffer after the body, from the input windows' blocks: its one store, of the payload of the loads. -/
def outBlk (x : Vec F S64x16384 .f32) (b : Vec F S1x256 .f32) (w0 w1 w2 w3 : Vec F S256x4096 .f32) : Vec F S64x256 .f32 :=
  View.canon [⟨rO, k0_pay1 (View.ld b rB) (View.ld x rX0) (View.ld w0 rW) (View.ld x rX1) (View.ld w1 rW) (View.ld x rX2) (View.ld w2 rW) (View.ld x rX3) (View.ld w3 rW)⟩]

/-- The store covers the buffer. -/
theorem coverO (p0 : Vec F S64x256 .f32) (y : S64x256.Idx) :
    ∃ pc ∈ ([⟨rO, p0⟩] : List (View.Piece (Elt F) S64x256 .f32)), y ∈ pc.1.set :=
  View.cover_of_tiled [⟨rO, p0⟩] S64x256.size (by rfl) y

/-! ## The body's triple -/

set_option maxHeartbeats 4000000 in
/-- The kernel body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S64x16384 .f32) (harg1 : arg1.IsWhole) (arg2 : Memref sig .tc .vmem S1x256 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S64x256 .f32) (harg7 : arg7.IsWhole)
    (x : Vec F S64x16384 .f32) (b : Vec F S1x256 .f32) (w0 w1 w2 w3 : Vec F S256x4096 .f32) (K : PUnit → sProp 𝕄) :
    iprop(owns (c : Thread nD τ) arg1 fullShare x ∗ owns (c : Thread nD τ) arg2 fullShare b
        ∗ owns (c : Thread nD τ) arg3 fullShare w0 ∗ owns (c : Thread nD τ) arg4 fullShare w1
        ∗ owns (c : Thread nD τ) arg5 fullShare w2 ∗ owns (c : Thread nD τ) arg6 fullShare w3
        ∗ (∃ d, owns (c : Thread nD τ) arg7 fullShare d)
        ∗ (iprop(owns (c : Thread nD τ) arg1 fullShare x ∗ owns (c : Thread nD τ) arg2 fullShare b
            ∗ owns (c : Thread nD τ) arg3 fullShare w0 ∗ owns (c : Thread nD τ) arg4 fullShare w1
            ∗ owns (c : Thread nD τ) arg5 fullShare w2 ∗ owns (c : Thread nD τ) arg6 fullShare w3
            ∗ owns (c : Thread nD τ) arg7 fullShare (outBlk x b w0 w1 w2 w3)) -∗ K ⟨⟩))
      ⊢ wp frame (wpE (defs₀ (F := F)) Variants.none c none) E (cc0__mm_kernel i arg1 harg1 arg2 harg2 arg3 harg3 arg4 harg4 arg5 harg5 arg6 harg6 arg7 harg7) K := by
  simp only [cc0__mm_kernel_eq_skeleton]; unfold cc0__mm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.KernelIdeal.Frm

end
-- ==== Proof.KernelIdealRun.lean ====
/-
  The proof data of `KernelIdeal`'s one pipeline, the body obligation at every grid point, and the run.

  After the body at point t each input window's buffer holds its block (the body only reads it) and the output
  window's buffer holds the body's store, the payload of those blocks. The weight array, read by windows 2 to 5, is
  held by them in the four shares left, right-left, right-right-left, right-right-right of the full share.
-/
import proofs.«127187_g63496796504161_cont_9to1_m_720_6_alg».proof.Proof.KernelIdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output window's buffer holds after the body at point `t`. -/
def outAt (c : Dev nD) (t : Fin cfg0.N) : Vec F S64x256 .f32 :=
  outBlk (iblk m c 0 t) (iblk m c 1 t) (iblk m c 2 t) (iblk m c 3 t) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right.left
    | ⟨4, _⟩ => fullShare.right.right.left
    | ⟨5, _⟩ => fullShare.right.right.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The four buffers behind the seven windows' arrays, each whole at the full share as the region finds them, are
    the windows' arrays at their shares: the weight array's full share is the four shares of its four windows. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_W0, bigSep_eq_bigSepL_of_eq [main_arg0, main_v0, main_arg1, main_v1] (by decide) (by decide)]
  simp only [bigSepL_cons_cons, bigSepL_singleton]
  rw [(arr_whole0 0).set_eq_univ, (arr_whole0 1).set_eq_univ, (arr_whole0 2).set_eq_univ, (arr_whole0 6).set_eq_univ]
  show iprop((((c : Thread nD τ).loc main_arg0) ↦{fullShare} V m c main_arg0)
      ∗ (((c : Thread nD τ).loc main_v0) ↦{fullShare} V m c main_v0)
      ∗ (((c : Thread nD τ).loc main_arg1) ↦{fullShare} V m c main_arg1)
      ∗ (((c : Thread nD τ).loc main_v1) ↦{fullShare} V m c main_v1))
    ⊢ iprop((((c : Thread nD τ).loc main_arg0) ↦{fullShare} V m c main_arg0)
      ∗ (((c : Thread nD τ).loc main_v0) ↦{fullShare} V m c main_v0)
      ∗ (((c : Thread nD τ).loc main_arg1) ↦{fullShare.left} V m c main_arg1)
      ∗ (((c : Thread nD τ).loc main_arg1) ↦{fullShare.right.left} V m c main_arg1)
      ∗ (((c : Thread nD τ).loc main_arg1) ↦{fullShare.right.right.left} V m c main_arg1)
      ∗ (((c : Thread nD τ).loc main_arg1) ↦{fullShare.right.right.right} V m c main_arg1)
      ∗ (((c : Thread nD τ).loc main_v1) ↦{fullShare} V m c main_v1))
  iintro ⟨H0, H1, H2, H3⟩
  ihave H2 := (pointsTo_share (PosShare.mem_left_op_right fullShare)).1 $$ H2
  icases H2 with ⟨Ha, Hr⟩
  ihave Hr := (pointsTo_share (PosShare.mem_left_op_right fullShare.right)).1 $$ Hr
  icases Hr with ⟨Hb, Hr⟩
  ihave Hr := (pointsTo_share (PosShare.mem_left_op_right fullShare.right.right)).1 $$ Hr
  icases Hr with ⟨Hc, Hd⟩
  isplitl [H0]; · iexact H0
  isplitl [H1]; · iexact H1
  isplitl [Ha]; · iexact Ha
  isplitl [Hb]; · iexact Hb
  isplitl [Hc]; · iexact Hc
  isplitl [Hd]; · iexact Hd
  iexact H3

/-! ## The run -/

set_option backward.isDefEq.respectTransparency.types false in
/-- Every weakly fair execution of @main terminates; every window's array ends at the contents the write-backs
    compute, and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The run's post read at the program's arrays: the result array at what the sixteen write-backs leave, the three
    argument arrays unchanged (x and the weights are inputs of the pipeline; the bias vector bypasses the region). -/
theorem run_arrays : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

/-- The frame: @main runs to the end without a fault and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_arrays m ρ)

end Cert.KernelIdeal.Frm

end
-- ==== Proof.Payload.lean ====
/-
  The kernel's one stored value, read at an index.  The body accumulates four matrix products onto the
  broadcast bias row: at output index (r, j), r < 64, j < 256, it is
    ((((b[0, j] + Σ_k x₀[r,k]·w₀[j,k]) + Σ_k x₁[r,k]·w₁[j,k]) + Σ_k x₂[r,k]·w₂[j,k]) + Σ_k x₃[r,k]·w₃[j,k]),
  each sum over k < 4096.  Each product contracts the second axis of its left operand with the second axis
  of its right operand (X · Wᵀ) into a zero accumulator; the narrowing of the operands to bf16 is the
  identity on the extended reals.
-/
import proofs.«127187_g63496796504161_cont_9to1_m_720_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operand indices of the contraction, axis by axis -/

/-- The left operand's row is the output's row. -/
theorem lhs_mm_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
/-- The left operand's column is the contraction position. -/
theorem lhs_mm_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
/-- The right operand's row is the output's column. -/
theorem rhs_mm_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl
/-- The right operand's column is the contraction position. -/
theorem rhs_mm_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q

/-! ## One matrix product at an index -/

/-- A product of the body into the zero accumulator, at (r, j): Σ_k a[r,k] · b[j,k]. -/
theorem mm_apply (a : Vec Ideal S64x4096 .f32) (b : Vec Ideal S256x4096 .f32) (r : Fin 64) (j : Fin 256) :
    (matmul (F := Ideal) dot_S64x4096_S256x4096_S64x256_1_1_0_0_n_n none (truncf .bf16 a bitsLt_bf16_f32) (truncf .bf16 b bitsLt_bf16_f32)
        (constant (F := Ideal) S64x256 .f32 0x00000000#32)) (ix2 r j)
      = ∑ k : Fin 4096, a (ix2 r k) * b (ix2 j k) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 r j) ((contrEquiv1 dot_S64x4096_S256x4096_S64x256_1_1_0_0_n_n 4096 rfl rfl).symm k) = ix2 r k := funext fun c => Fin.ext (by
    match c with
    | ⟨0, _⟩ => exact lhs_mm_0 _ _
    | ⟨1, _⟩ => exact (lhs_mm_1 _ _).trans hk)
  have er : dot_S64x4096_S256x4096_S64x256_1_1_0_0_n_n.rhsIdx (ix2 r j) ((contrEquiv1 dot_S64x4096_S256x4096_S64x256_1_1_0_0_n_n 4096 rfl rfl).symm k) = ix2 j k := funext fun c => Fin.ext (by
    match c with
    | ⟨0, _⟩ => exact rhs_mm_0 _ _
    | ⟨1, _⟩ => exact (rhs_mm_1 _ _).trans hk)
  rw [el, er]
  rfl

/-! ## The bias row at an index -/

/-- The bias block, cast to its own shape and broadcast along the rows, at (r, j): b[0, j]. -/
theorem bias_apply (v0 : Vec Ideal S1x256 .f32) (r : Fin 64) (j : Fin 256) :
    (broadcastTo S64x256 (shapeCast S1x256 v0 shapeCasts_S1x256_S1x256) broadcasts_S1x256_S64x256) (ix2 r j)
      = v0 (ix2 (0 : Fin 1) j) := by
  rw [shapeCast_self]
  exact broadcastTo_apply v0 broadcasts_S1x256_S64x256 (ix2 r j) (ix2 (0 : Fin 1) j) (fun c => match c with
    | ⟨0, _⟩ => by show (0 : Nat) = if (1 : Nat) = 1 then 0 else _; rw [if_pos rfl]
    | ⟨1, _⟩ => by show j.val = if (256 : Nat) = 1 then 0 else j.val; rw [if_neg (by decide)])

/-! ## The stored value at an index -/

/-- The body's stored value at (r, j): the bias plus the four products, added from the left in program order. -/
theorem pay_apply (v0 : Vec Ideal S1x256 .f32) (v2 : Vec Ideal S64x4096 .f32) (v4 : Vec Ideal S256x4096 .f32)
    (v9 : Vec Ideal S64x4096 .f32) (v11 : Vec Ideal S256x4096 .f32) (v15 : Vec Ideal S64x4096 .f32)
    (v17 : Vec Ideal S256x4096 .f32) (v21 : Vec Ideal S64x4096 .f32) (v23 : Vec Ideal S256x4096 .f32)
    (r : Fin 64) (j : Fin 256) :
    k0_pay1 (F := Ideal) v0 v2 v4 v9 v11 v15 v17 v21 v23 (ix2 r j)
      = ((((v0 (ix2 (0 : Fin 1) j) + ∑ k : Fin 4096, v2 (ix2 r k) * v4 (ix2 j k))
          + ∑ k : Fin 4096, v9 (ix2 r k) * v11 (ix2 j k))
          + ∑ k : Fin 4096, v15 (ix2 r k) * v17 (ix2 j k))
          + ∑ k : Fin 4096, v21 (ix2 r k) * v23 (ix2 j k)) := by
  unfold k0_pay1
  simp only [addf_apply]
  rw [mm_apply v2 v4 r j, mm_apply v9 v11 r j, mm_apply v15 v17 r j, mm_apply v21 v23 r j, bias_apply v0 r j]

end Cert.KernelIdeal.Pay

end
-- ==== Proof.Spec.lean ====
/-
  The specification shared by both programs, at the ideal instance: the affine map
  out[r, o] = (Σ_k w[o, k] · x[r, k]) + b[o] over the extended reals, r < 64, o < 4096, k < 16384,
  and the one law that joins the two arrangements of its sum: a sum over 16384 terms is the sum of its
  four consecutive quarters of 4096 terms, added to the bias from the left one quarter at a time.
  Only commutativity and associativity of + and · on the extended reals are used, so no finiteness is needed.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨2, ![64, 16384]⟩
abbrev SW : Shape := ⟨2, ![4096, 16384]⟩
abbrev SB : Shape := ⟨1, ![4096]⟩
abbrev SO : Shape := ⟨2, ![64, 4096]⟩

/-- The affine map, index by index: out[r, o] = (Σ_k w[o, k] · x[r, k]) + b[o]. -/
def affine (x : FVec Ideal SX .f32) (w : FVec Ideal SW .f32) (b : FVec Ideal SB .f32) : FVec Ideal SO .f32 :=
  fun i => (∑ k : Fin 16384, w (ix2 (i 1) k) * x (ix2 (i 0) k)) + b (ix1 (i 1))

/-- The k-th term of quarter q (q < 4, k < 4096) of a 16384-term sequence. -/
abbrev quarter (q : Nat) (hq : q < 4) (k : Fin 4096) : Fin 16384 := ⟨q * 4096 + k.val, by have := k.isLt; omega⟩

end Cert.Spec

end
-- ==== Proof.BlockValue.lean ====
/-
  The block one grid point stores, read at an index.  The body loads the whole bias block, the four weight blocks
  whole, and the four consecutive quarters (4096 columns each) of the 16384 columns of x; its one store fills the
  64 × 256 output block with the payload of those loads.  So at (r, j), r < 64, j < 256, the block is
    ((((b[0, j] + Σ_k x[r, k]·w₀[j,k]) + Σ_k x[r, 4096+k]·w₁[j,k]) + Σ_k x[r, 8192+k]·w₂[j,k]) + Σ_k x[r, 12288+k]·w₃[j,k]),
  each sum over k < 4096: a load through a unit-stride rectangle reads its source at offset + coordinate, axis by axis.
-/
import proofs.«127187_g63496796504161_cont_9to1_m_720_6_alg».proof.Proof.KernelIdealBody
import proofs.«127187_g63496796504161_cont_9to1_m_720_6_alg».proof.Proof.Payload
import proofs.«127187_g63496796504161_cont_9to1_m_720_6_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx

/-- The zero offsets, however spelt. -/
theorem hz : (![0, 0] : Fin 2 → Nat) = fun _ => 0 :=
  funext fun a => match a with
    | ⟨0, _⟩ => rfl
    | ⟨1, _⟩ => rfl

/-! ## The four quarters of x through their rectangles -/

/-- A load of 4096 columns of x from column `o` on, at (r, k), is x at (r, o + k). -/
theorem ld_cols (x : Vec Ideal S64x16384 .f32) (o : Nat)
    (inb : ∀ a, (![0, o] : Fin 2 → Nat) a + S64x4096.size a ≤ S64x16384.size a)
    (r : Fin 64) (k : Fin 4096) (k' : Fin 16384) (hk : k'.val = o + k.val) :
    View.ld x (Rect.unit (s := S64x16384) ![0, o] S64x4096.size inb) (ix2 r k) = x (ix2 r k') := by
  show x ((Rect.unit (s := S64x16384) ![0, o] S64x4096.size inb).idx (ix2 r k)) = x (ix2 r k')
  refine congrArg x (funext fun a => Fin.ext ?_)
  match a with
  | ⟨0, _⟩ => show 0 + 1 * r.val = r.val; omega
  | ⟨1, _⟩ => show o + 1 * k.val = k'.val; omega

theorem ldX0 (x : Vec Ideal S64x16384 .f32) (r : Fin 64) (k : Fin 4096) :
    View.ld x Frm.rX0 (ix2 r k) = x (ix2 r (Spec.quarter 0 (by decide) k)) :=
  ld_cols x 0 _ r k _ (by show 0 * 4096 + k.val = 0 + k.val; omega)
theorem ldX1 (x : Vec Ideal S64x16384 .f32) (r : Fin 64) (k : Fin 4096) :
    View.ld x Frm.rX1 (ix2 r k) = x (ix2 r (Spec.quarter 1 (by decide) k)) :=
  ld_cols x 4096 _ r k _ (by show 1 * 4096 + k.val = 4096 + k.val; omega)
theorem ldX2 (x : Vec Ideal S64x16384 .f32) (r : Fin 64) (k : Fin 4096) :
    View.ld x Frm.rX2 (ix2 r k) = x (ix2 r (Spec.quarter 2 (by decide) k)) :=
  ld_cols x 8192 _ r k _ (by show 2 * 4096 + k.val = 8192 + k.val; omega)
theorem ldX3 (x : Vec Ideal S64x16384 .f32) (r : Fin 64) (k : Fin 4096) :
    View.ld x Frm.rX3 (ix2 r k) = x (ix2 r (Spec.quarter 3 (by decide) k)) :=
  ld_cols x 12288 _ r k _ (by show 3 * 4096 + k.val = 12288 + k.val; omega)

/-! ## The stored block at an index -/

theorem outBlk_apply (x : Vec Ideal S64x16384 .f32) (b : Vec Ideal S1x256 .f32) (w0 w1 w2 w3 : Vec Ideal S256x4096 .f32)
    (r : Fin 64) (j : Fin 256) :
    Cert.KernelIdeal.Frm.outBlk (F := Ideal) x b w0 w1 w2 w3 (ix2 r j)
      = ((((b (ix2 (0 : Fin 1) j) + ∑ k : Fin 4096, x (ix2 r (Cert.Spec.quarter 0 (by decide) k)) * w0 (ix2 j k))
          + ∑ k : Fin 4096, x (ix2 r (Cert.Spec.quarter 1 (by decide) k)) * w1 (ix2 j k))
          + ∑ k : Fin 4096, x (ix2 r (Cert.Spec.quarter 2 (by decide) k)) * w2 (ix2 j k))
          + ∑ k : Fin 4096, x (ix2 r (Cert.Spec.quarter 3 (by decide) k)) * w3 (ix2 j k)) := by
  unfold Frm.outBlk
  rw [View.canon_unit_zero hz]
  have eb : View.ld b Frm.rB = b := View.ld_unit_zero hz _ b
  have ew : ∀ w : Vec Ideal S256x4096 .f32, View.ld w Frm.rW = w := fun w => View.ld_unit_zero hz _ w
  rw [eb, ew w0, ew w1, ew w2, ew w3, Pay.pay_apply]
  refine congrArg₂ (· + ·) (congrArg₂ (· + ·) (congrArg₂ (· + ·) (congrArg₂ (· + ·) rfl ?_) ?_) ?_) ?_
  · exact Finset.sum_congr rfl fun k _ => congrArg (· * w0 (ix2 j k)) (ldX0 x r k)
  · exact Finset.sum_congr rfl fun k _ => congrArg (· * w1 (ix2 j k)) (ldX1 x r k)
  · exact Finset.sum_congr rfl fun k _ => congrArg (· * w2 (ix2 j k)) (ldX2 x r k)
  · exact Finset.sum_congr rfl fun k _ => congrArg (· * w3 (ix2 j k)) (ldX3 x r k)

end Cert.KernelIdeal.Val

end
-- ==== Proof.BiasRow.lean ====
/-
  The bias row the region finds. Before the region the host reshapes the bias vector (4096 entries) to a row
  (1 × 4096); a reshape keeps the row-major order, and on a row the row-major position of (0, o) is o, the
  position of o in the vector. So the row read at (0, o) is the bias vector read at o.
-/
import proofs.«127187_g63496796504161_cont_9to1_m_720_6_alg».proof.Proof.KernelIdealBody
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.TcCoe Idealize.ShloMosaic.ValueIdx Idealize.ShloMosaic.StableHlo

variable {F : FTy → Type} [FloatOps F]

/-- The row as a whole: the bias vector, reshaped. -/
theorem biasRow_eq (m : (ℓ : Loc nD τ sig) → Buf (Elt F) ℓ) (c : Dev nD) :
    (Frm.V m c main_v0 : S1x4096.Idx → Elt F .f32)
      = shapeCast S1x4096 (m ((c : Thread nD τ).loc main_arg2)) shapeCasts_S4096_S1x4096 := by
  dsimp only [Frm.V, hostOps0]
  after_results
  rfl

/-- The row at (0, o) is the bias vector at o. -/
theorem biasRow_apply (m : (ℓ : Loc nD τ sig) → Buf (Elt F) ℓ) (c : Dev nD) (o : Fin 4096) :
    Frm.V m c main_v0 (ix2 (0 : Fin 1) o) = m ((c : Thread nD τ).loc main_arg2) (ix1 o) :=
  (congrFun (biasRow_eq m c) (ix2 (0 : Fin 1) o)).trans
    (shapeCast_a_1a_apply (m ((c : Thread nD τ).loc main_arg2)) shapeCasts_S4096_S1x4096 (0 : Fin 1) o)

end Cert.KernelIdeal.Val

end
-- ==== Proof.Algebra.lean ====
/-
  A sum over 16384 terms of the extended reals is the sum of its four consecutive quarters of 4096 terms.
  The index set Fin 16384 is cut as Fin 4 × Fin 4096 by (q, k) ↦ k + 4096 · q; the sum over the product is
  the iterated sum; the outer sum over Fin 4 is written out; and the four quarter sums, added to the bias
  from the left one at a time, are rearranged by commutativity and associativity of + alone.
-/
import proofs.«127187_g63496796504161_cont_9to1_m_720_6_alg».proof.Proof.Spec
import Mathlib.Algebra.BigOperators.Fin
import Mathlib.Algebra.BigOperators.Group.Finset.Basic
import Mathlib.Logic.Equiv.Fin.Basic
import Mathlib.Data.Fintype.BigOperators
import Mathlib.Data.EReal.Basic

noncomputable section

open scoped BigOperators

namespace Cert.Spec

/-- The sum over all 16384 indices is the sum over q < 4 of the sum over quarter q. -/
theorem sum_eq_sum_quarters (f : Fin 16384 → EReal) :
    (∑ k : Fin 16384, f k)
      = ∑ q : Fin 4, ∑ k : Fin 4096, f ⟨q.val * 4096 + k.val, by have := q.isLt; have := k.isLt; omega⟩ := by
  calc (∑ k : Fin 16384, f k)
      = ∑ p : Fin 4 × Fin 4096, f (finProdFinEquiv (m := 4) (n := 4096) p) :=
        (Equiv.sum_comp (finProdFinEquiv (m := 4) (n := 4096)) f).symm
    _ = ∑ q : Fin 4, ∑ k : Fin 4096, f (finProdFinEquiv (m := 4) (n := 4096) (q, k)) := Fintype.sum_prod_type _
    _ = _ := by
      refine Finset.sum_congr rfl fun q _ => Finset.sum_congr rfl fun k _ => ?_
      congr 1
      apply Fin.ext
      simp only [finProdFinEquiv_apply_val]
      omega

theorem quarters_sum (f : Fin 16384 → EReal) (b : EReal) :
    ((((b + ∑ k : Fin 4096, f (quarter 0 (by decide) k)) + ∑ k : Fin 4096, f (quarter 1 (by decide) k))
        + ∑ k : Fin 4096, f (quarter 2 (by decide) k)) + ∑ k : Fin 4096, f (quarter 3 (by decide) k))
      = (∑ k : Fin 16384, f k) + b := by
  rw [sum_eq_sum_quarters f, Fin.sum_univ_four]
  have h0 : ∀ k : Fin 4096, f (quarter 0 (by decide) k)
      = f ⟨(0 : Fin 4).val * 4096 + k.val, by have := k.isLt; simp; omega⟩ := fun k => rfl
  have h1 : ∀ k : Fin 4096, f (quarter 1 (by decide) k)
      = f ⟨(1 : Fin 4).val * 4096 + k.val, by have := k.isLt; simp; omega⟩ := fun k => rfl
  have h2 : ∀ k : Fin 4096, f (quarter 2 (by decide) k)
      = f ⟨(2 : Fin 4).val * 4096 + k.val, by have := k.isLt; simp; omega⟩ := fun k => rfl
  have h3 : ∀ k : Fin 4096, f (quarter 3 (by decide) k)
      = f ⟨(3 : Fin 4).val * 4096 + k.val, by have := k.isLt; simp; omega⟩ := fun k => rfl
  simp only [h0, h1, h2, h3]
  ac_rfl

end Cert.Spec

end
-- ==== Proof.KernelIdealValue.lean ====
/-
  The value of the idealized kernel's run: the result array is the affine map of the three argument arrays.

  Point t of the grid writes back the block of rows 0 … 63 and columns 256t … 256t+255 of the result. What it writes
  at (r, j) is the bias entry 256t+j plus, one quarter of the columns at a time, the products of row r of x with row
  256t+j of the weights — the body's stored value read through the blocks the body was handed: all of x, the t-th
  block of the bias row, and the four blocks of weight rows 256t … 256t+255, one per quarter of the columns. The four
  quarters' sums added to the bias from the left are the whole sum plus the bias (addition of extended reals is
  commutative and associative), and each product commutes, so the block is the affine map's. The sixteen blocks
  cover the result array.
-/
import proofs.«127187_g63496796504161_cont_9to1_m_720_6_alg».proof.Proof.KernelIdealRun
import proofs.«127187_g63496796504161_cont_9to1_m_720_6_alg».proof.Proof.BlockValue
import proofs.«127187_g63496796504161_cont_9to1_m_720_6_alg».proof.Proof.BiasRow
import proofs.«127187_g63496796504161_cont_9to1_m_720_6_alg».proof.Proof.Algebra
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps over the grid -/

/-- Where each window's block sits at point t: x at the origin; the bias row's block t; the weights' row-block t in
    column-quarter q for window 2+q; the result's column-block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = t.val ∧ win0_3.index t (1 : Fin 2) = 1
    ∧ win0_4.index t (0 : Fin 2) = t.val ∧ win0_4.index t (1 : Fin 2) = 2
    ∧ win0_5.index t (0 : Fin 2) = t.val ∧ win0_5.index t (1 : Fin 2) = 3
    ∧ win0_6.index t (0 : Fin 2) = 0 ∧ win0_6.index t (1 : Fin 2) = t.val :=
  (by decide +kernel : ∀ t : Fin grid0.N, _)

theorem t_lt (t : Fin cfg0.N) : t.val < 16 := lt_of_lt_of_eq t.isLt N_0

/-- The result column (and weight row, and bias entry) that point t's block has at its j-th place. -/
abbrev ocol (t : Fin cfg0.N) (j : Fin 256) : Fin 4096 := ⟨t.val * 256 + j.val, by have := t_lt t; have := j.isLt; omega⟩

/-! ## The specification at the region-entry contents -/

/-- The arrays as the region finds them, at their literal types. -/
abbrev xarr (c : Dev nD) : FVec Ideal S64x16384 .f32 := V m c main_arg0
abbrev warr (c : Dev nD) : FVec Ideal S4096x16384 .f32 := V m c main_arg1
abbrev brow (c : Dev nD) : FVec Ideal S1x4096 .f32 := V m c main_v0

/-- The bias row the region finds, as a vector of 4096 entries. -/
def biasVec (c : Dev nD) : FVec Ideal S4096 .f32 := fun i => brow m c (ix2 (0 : Fin 1) (⟨(i 0).val, (i 0).isLt⟩ : Fin 4096))

/-- The affine map of the arrays as the region finds them. -/
def G (c : Dev nD) : FVec Ideal S64x4096 .f32 := Cert.Spec.affine (xarr m c) (warr m c) (biasVec m c)

theorem biasVec_eq (c : Dev nD) : biasVec m c = m ((c : Thread nD τ).loc main_arg2) := by
  funext i
  unfold biasVec
  show V m c main_v0 (ix2 (0 : Fin 1) (⟨(i 0).val, (i 0).isLt⟩ : Fin 4096)) = _
  rw [biasRow_apply]
  refine congrArg _ (funext fun d => ?_)
  match d with
  | ⟨0, _⟩ => rfl

theorem G_eq (c : Dev nD) : G m c = Cert.Spec.affine (m ((c : Thread nD τ).loc main_arg0)) (m ((c : Thread nD τ).loc main_arg1)) (m ((c : Thread nD τ).loc main_arg2)) := by
  unfold G
  rw [biasVec_eq, show xarr m c = m ((c : Thread nD τ).loc main_arg0) from V_main_arg0 m c, show warr m c = m ((c : Thread nD τ).loc main_arg1) from V_main_arg1 m c]

/-- The affine map at (r, o), spelt out. -/
theorem G_apply (c : Dev nD) (r : Fin 64) (o : Fin 4096) :
    G m c (ix2 r o) = (∑ k : Fin 16384, warr m c (ix2 o k) * xarr m c (ix2 r k)) + brow m c (ix2 (0 : Fin 1) o) := rfl

/-! ## The input blocks, read at an index -/

theorem x_read (c : Dev nD) (t : Fin cfg0.N) (r : Fin 64) (k : Fin 16384) :
    iblk m c 0 t (ix2 r k) = xarr m c (ix2 r k) := by
  obtain ⟨e00, e01, -⟩ := idx_facts t
  show V m c main_arg0 (((cfg0.win 0).blk t).view.emb (ix2 r k)) = V m c main_arg0 (ix2 r k)
  refine congrArg _ (funext fun a => Fin.ext ?_)
  match a with
  | ⟨0, _⟩ => show win0_0.index t (0 : Fin 2) * 64 + 1 * r.val = r.val; omega
  | ⟨1, _⟩ => show win0_0.index t (1 : Fin 2) * 16384 + 1 * k.val = k.val; omega

theorem b_read (c : Dev nD) (t : Fin cfg0.N) (j : Fin 256) :
    iblk m c 1 t (ix2 (0 : Fin 1) j) = brow m c (ix2 (0 : Fin 1) (ocol t j)) := by
  obtain ⟨-, -, e10, e11, -⟩ := idx_facts t
  show V m c main_v0 (((cfg0.win 1).blk t).view.emb (ix2 (0 : Fin 1) j)) = V m c main_v0 (ix2 (0 : Fin 1) (ocol t j))
  refine congrArg _ (funext fun a => Fin.ext ?_)
  match a with
  | ⟨0, _⟩ => show win0_1.index t (0 : Fin 2) * 1 + 1 * 0 = 0; omega
  | ⟨1, _⟩ => show win0_1.index t (1 : Fin 2) * 256 + 1 * j.val = t.val * 256 + j.val; omega

theorem w0_read (c : Dev nD) (t : Fin cfg0.N) (j : Fin 256) (k : Fin 4096) :
    iblk m c 2 t (ix2 j k) = warr m c (ix2 (ocol t j) (Cert.Spec.quarter 0 (by decide) k)) := by
  obtain ⟨-, -, -, -, e0, e1, -⟩ := idx_facts t
  show V m c main_arg1 (((cfg0.win 2).blk t).view.emb (ix2 j k)) = V m c main_arg1 (ix2 (ocol t j) (Cert.Spec.quarter 0 (by decide) k))
  refine congrArg _ (funext fun a => Fin.ext ?_)
  match a with
  | ⟨0, _⟩ => show win0_2.index t (0 : Fin 2) * 256 + 1 * j.val = t.val * 256 + j.val; omega
  | ⟨1, _⟩ => show win0_2.index t (1 : Fin 2) * 4096 + 1 * k.val = 0 * 4096 + k.val; omega

theorem w1_read (c : Dev nD) (t : Fin cfg0.N) (j : Fin 256) (k : Fin 4096) :
    iblk m c 3 t (ix2 j k) = warr m c (ix2 (ocol t j) (Cert.Spec.quarter 1 (by decide) k)) := by
  obtain ⟨-, -, -, -, -, -, e0, e1, -⟩ := idx_facts t
  show V m c main_arg1 (((cfg0.win 3).blk t).view.emb (ix2 j k)) = V m c main_arg1 (ix2 (ocol t j) (Cert.Spec.quarter 1 (by decide) k))
  refine congrArg _ (funext fun a => Fin.ext ?_)
  match a with
  | ⟨0, _⟩ => show win0_3.index t (0 : Fin 2) * 256 + 1 * j.val = t.val * 256 + j.val; omega
  | ⟨1, _⟩ => show win0_3.index t (1 : Fin 2) * 4096 + 1 * k.val = 1 * 4096 + k.val; omega

theorem w2_read (c : Dev nD) (t : Fin cfg0.N) (j : Fin 256) (k : Fin 4096) :
    iblk m c 4 t (ix2 j k) = warr m c (ix2 (ocol t j) (Cert.Spec.quarter 2 (by decide) k)) := by
  obtain ⟨-, -, -, -, -, -, -, -, e0, e1, -⟩ := idx_facts t
  show V m c main_arg1 (((cfg0.win 4).blk t).view.emb (ix2 j k)) = V m c main_arg1 (ix2 (ocol t j) (Cert.Spec.quarter 2 (by decide) k))
  refine congrArg _ (funext fun a => Fin.ext ?_)
  match a with
  | ⟨0, _⟩ => show win0_4.index t (0 : Fin 2) * 256 + 1 * j.val = t.val * 256 + j.val; omega
  | ⟨1, _⟩ => show win0_4.index t (1 : Fin 2) * 4096 + 1 * k.val = 2 * 4096 + k.val; omega

theorem w3_read (c : Dev nD) (t : Fin cfg0.N) (j : Fin 256) (k : Fin 4096) :
    iblk m c 5 t (ix2 j k) = warr m c (ix2 (ocol t j) (Cert.Spec.quarter 3 (by decide) k)) := by
  obtain ⟨-, -, -, -, -, -, -, -, -, -, e0, e1, -⟩ := idx_facts t
  show V m c main_arg1 (((cfg0.win 5).blk t).view.emb (ix2 j k)) = V m c main_arg1 (ix2 (ocol t j) (Cert.Spec.quarter 3 (by decide) k))
  refine congrArg _ (funext fun a => Fin.ext ?_)
  match a with
  | ⟨0, _⟩ => show win0_5.index t (0 : Fin 2) * 256 + 1 * j.val = t.val * 256 + j.val; omega
  | ⟨1, _⟩ => show win0_5.index t (1 : Fin 2) * 4096 + 1 * k.val = 3 * 4096 + k.val; omega

/-- The place of the result array that point t's block has at (r, j). -/
theorem o_emb (t : Fin cfg0.N) (r : Fin 64) (j : Fin 256) :
    (((cfg0.win 6).blk t).view.emb (ix2 r j) : S64x4096.Idx) = ix2 r (ocol t j) := by
  obtain ⟨-, -, -, -, -, -, -, -, -, -, -, -, e0, e1⟩ := idx_facts t
  refine funext fun a => Fin.ext ?_
  match a with
  | ⟨0, _⟩ => show win0_6.index t (0 : Fin 2) * 64 + 1 * r.val = r.val; omega
  | ⟨1, _⟩ => show win0_6.index t (1 : Fin 2) * 256 + 1 * j.val = t.val * 256 + j.val; omega

/-! ## What a point writes back -/

/-- The body's store at point t, at (r, j), is the affine map at (r, 256t + j). -/
theorem outAt_apply (c : Dev nD) (t : Fin cfg0.N) (r : Fin 64) (j : Fin 256) :
    outAt m c t (ix2 r j) = G m c (ix2 r (ocol t j)) := by
  unfold outAt
  refine (outBlk_apply (iblk m c 0 t) (iblk m c 1 t) (iblk m c 2 t) (iblk m c 3 t) (iblk m c 4 t) (iblk m c 5 t) r j).trans ?_
  rw [G_apply, ← Cert.Spec.quarters_sum (fun k => warr m c (ix2 (ocol t j) k) * xarr m c (ix2 r k)) (brow m c (ix2 (0 : Fin 1) (ocol t j)))]
  refine congrArg₂ (· + ·) (congrArg₂ (· + ·) (congrArg₂ (· + ·) (congrArg₂ (· + ·) (b_read m c t j) ?_) ?_) ?_) ?_
  · exact Finset.sum_congr rfl fun k _ => by rw [x_read, w0_read]; exact mul_comm _ _
  · exact Finset.sum_congr rfl fun k _ => by rw [x_read, w1_read]; exact mul_comm _ _
  · exact Finset.sum_congr rfl fun k _ => by rw [x_read, w2_read]; exact mul_comm _ _
  · exact Finset.sum_congr rfl fun k _ => by rw [x_read, w3_read]; exact mul_comm _ _

/-- What point t writes back is block t of the affine map. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  funext y
  obtain ⟨r, j, rfl⟩ : ∃ (r : Fin 64) (j : Fin 256), y = ix2 r j := ⟨y 0, y 1, eq_ix2 (n0 := 64) (n1 := 256) y⟩
  show outAt m c t (ix2 r j) = G m c (((cfg0.win 6).blk t).view.emb (ix2 r j))
  rw [o_emb]
  exact outAt_apply m c t r j

/-! ## The blocks cover the result -/

theorem mem_blk (t : Fin cfg0.N) (i : S64x4096.Idx) :
    i ∈ ((cfg0.win 6).blk t).view.set ↔ ∀ a : Fin 2, win0_6.index t a * S64x256.size a ≤ (i a).val ∧ (i a).val < win0_6.index t a * S64x256.size a + S64x256.size a := by
  show i ∈ ((View.whole main_v1).slice (win0_6.rect t)).set ↔ _
  rw [View.set_slice_whole, Rect.mem_set_unit]
  exact Iff.rfl

theorem cover (i : S64x4096.Idx) : ∃ t : Fin cfg0.N, (cfg0.win 6).flush t = true ∧ i ∈ ((cfg0.win 6).blk t).view.set := by
  have hi0 : (i 0).val < 64 := (i 0).isLt
  have hi1 : (i 1).val < 4096 := (i 1).isLt
  have hN : (i 1).val / 256 < cfg0.N := by rw [show cfg0.N = 16 from N_0]; omega
  obtain ⟨-, -, -, -, -, -, -, -, -, -, -, -, e0, e1⟩ := idx_facts ⟨(i 1).val / 256, hN⟩
  refine ⟨⟨(i 1).val / 256, hN⟩, flush0_6 _, ?_⟩
  rw [mem_blk]
  intro a
  match a with
  | ⟨0, _⟩ =>
    show win0_6.index ⟨(i 1).val / 256, hN⟩ (0 : Fin 2) * 64 ≤ (i 0).val ∧ (i 0).val < win0_6.index ⟨(i 1).val / 256, hN⟩ (0 : Fin 2) * 64 + 64
    omega
  | ⟨1, _⟩ =>
    show win0_6.index ⟨(i 1).val / 256, hN⟩ (1 : Fin 2) * 256 ≤ (i 1).val ∧ (i 1).val < win0_6.index ⟨(i 1).val / 256, hN⟩ (1 : Fin 2) * 256 + 256
    have e1' : win0_6.index ⟨(i 1).val / 256, hN⟩ (1 : Fin 2) = (i 1).val / 256 := e1
    omega

/-- The result array after the run is the affine map of the arrays as the region found them. -/
theorem final (c : Dev nD) : (dats m 0 c).arrAt 6 cfg0.N = G m c :=
  (dats m 0 c).arrAt_eq_of_cover 6 (G m c) (fun t _ => flushed_eq m c t) (cover)

/-! ## The run, read -/

/-- Every weakly fair execution of the idealized kernel's @main terminates with the result array at the affine map
    of the argument arrays and the argument arrays unchanged. -/
theorem run : θ_run defs (onTc (τ := τ) (main (F := Ideal))) ⟨m, fun _ => 0, ρ⟩ fun r => ∀ c : Dev nD,
      r.2.mem ((c.tc : Thread nD τ).loc main_v1) = Cert.Spec.affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((final m c).trans (G_eq m c)), (h c).2⟩) (run_arrays m ρ)

end Cert.KernelIdeal.Val

end
-- ==== Proof.RefValue.lean ====
/-
  The reference program at the ideal instance is the affine map of the specification.
  Read index by index: the last operation adds, at (r, o), the transposed product read at (o, r) and the
  twice-broadcast bias read at o; the product at (o, r) is the sum over k of w[o, k] times the transposed
  input read at (k, r), which is x[r, k]. The composed index maps are the coordinate constructors, one axis
  at a time, and the ideal addition is the addition of the extended reals.
-/
import proofs.«127187_g63496796504161_cont_9to1_m_720_6_alg».proof.Proof.Gen.ReferenceIdeal.Read
import proofs.«127187_g63496796504161_cont_9to1_m_720_6_alg».proof.Proof.Spec

noncomputable section

open scoped BigOperators

namespace Cert.ReferenceIdeal.RefValue

open Cert.ReferenceIdeal Cert.ReferenceIdeal.Gen Idealize.ShloMosaic Idealize.ShloMosaic.ValueIdx

/-- Left operand of the product: row o, column k. -/
theorem lidx_eq (r : Fin 64) (o : Fin 4096) (k : Fin 16384) :
    Read.lidx_main_v1 (Read.idx_main_v2 (ix2 r o)) k = ix2 o k :=
  funext fun a => Fin.ext (by
    match a with
    | ⟨0, _⟩ => rfl
    | ⟨1, _⟩ => rfl)

/-- Right operand of the product, through the transposition of the input: row r, column k. -/
theorem ridx_eq (r : Fin 64) (o : Fin 4096) (k : Fin 16384) :
    Read.idx_main_v0 (Read.ridx_main_v1 (Read.idx_main_v2 (ix2 r o)) k) = ix2 r k :=
  funext fun a => Fin.ext (by
    match a with
    | ⟨0, _⟩ => rfl
    | ⟨1, _⟩ => rfl)

/-- The bias through its two broadcasts: entry o. -/
theorem bidx_eq (r : Fin 64) (o : Fin 4096) :
    Read.idx_main_v3 (Read.idx_main_v4 (ix2 r o)) = ix1 o :=
  funext fun a => Fin.ext (by
    match a with
    | ⟨0, _⟩ => rfl)

theorem ref_eq (x0 : FVec Ideal S64x16384 .f32) (x1 : FVec Ideal S4096x16384 .f32) (x2 : FVec Ideal S4096 .f32) :
    Cert.ReferenceIdeal.Read.val_main_v5 (F := Ideal) x0 x1 x2 = Cert.Spec.affine x0 x1 x2 := by
  funext i
  obtain ⟨r, o, rfl⟩ : ∃ (r : Fin 64) (o : Fin 4096), i = ix2 r o := ⟨i 0, i 1, eq_ix2 i⟩
  rw [Read.val_main_v5_apply, Read.val_main_v2_apply, Read.val_main_v1_apply, Read.val_main_v4_apply,
    Read.val_main_v3_apply, bidx_eq]
  simp only [Read.val_main_v0_apply, lidx_eq, ridx_eq]
  rfl

end Cert.ReferenceIdeal.RefValue

end
-- ==== Proof.lean ====
/-
  A linear layer, out = x · Wᵀ + bias, with x : f32[64, 16384], W : f32[4096, 16384], bias : f32[4096].

  The kernel computes it over sixteen grid points, 256 output columns at a time: at each point it adds to the bias
  block the four products of the four column-quarters of x with the matching quarters of 256 rows of W (operands
  narrowed to bf16, accumulated in f32). The reference is one matrix product of W with xᵀ, transposed, plus the
  broadcast bias. At the ideal instance narrowing is the identity and every operation is exact on the extended reals,
  so at output (r, o) the kernel has ((((bias[o] + Σ_{k<4096} x[r,k]·W[o,k]) + Σ x[r,4096+k]·W[o,4096+k]) + …) + …)
  and the reference (Σ_{k<16384} W[o,k]·x[r,k]) + bias[o]: equal because a sum splits into its four quarters and
  + and · of extended reals are commutative and associative. No finiteness of the inputs is used.

  The three frames: each kernel program's run (terminates, faults nowhere, leaves the arguments unchanged) is the
  shared-array frame run of its one pipelined region after the host reshape of the bias; the reference's is its
  run of six host operations. The idealization rewrote nothing, so `preserves` is trivial.
-/
import proofs.«127187_g63496796504161_cont_9to1_m_720_6_alg».proof.Defs
import proofs.«127187_g63496796504161_cont_9to1_m_720_6_alg».proof.Proof.Gen.Kernel
import proofs.«127187_g63496796504161_cont_9to1_m_720_6_alg».proof.Proof.Gen.KernelIdeal
import proofs.«127187_g63496796504161_cont_9to1_m_720_6_alg».proof.Proof.Gen.ReferenceIdeal
import proofs.«127187_g63496796504161_cont_9to1_m_720_6_alg».proof.Proof.Gen.Pre_finite_inputs
import proofs.«127187_g63496796504161_cont_9to1_m_720_6_alg».proof.Proof.Gen.ReferenceIdeal.Run
import proofs.«127187_g63496796504161_cont_9to1_m_720_6_alg».proof.Proof.Gen.ReferenceIdeal.Read
import proofs.«127187_g63496796504161_cont_9to1_m_720_6_alg».proof.Proof.KernelRun
import proofs.«127187_g63496796504161_cont_9to1_m_720_6_alg».proof.Proof.KernelIdealValue
import proofs.«127187_g63496796504161_cont_9to1_m_720_6_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the affine map of the (agreeing) argument arrays. -/
theorem algebraic : Cert.algebraic_KernelIdeal_ReferenceIdeal := by
  intro m ρ m' ρ' _ hagree
  refine ⟨fun c => Cert.Spec.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
